-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S4x3x2048 : Shape := ⟨3, ![4, 3, 2048]⟩
abbrev S4x3x512 : Shape := ⟨3, ![4, 3, 512]⟩
abbrev S4x2048 : Shape := ⟨2, ![4, 2048]⟩
abbrev S4x512 : Shape := ⟨2, ![4, 512]⟩
abbrev S4x1x2048 : Shape := ⟨3, ![4, 1, 2048]⟩
abbrev S4x2048x1 : Shape := ⟨3, ![4, 2048, 1]⟩
abbrev S4x1x512 : Shape := ⟨3, ![4, 1, 512]⟩
abbrev S4x2048x512 : Shape := ⟨3, ![4, 2048, 512]⟩
abbrev S_ : Shape := ⟨0, ![]⟩
abbrev S4 : Shape := ⟨1, ![4]⟩

abbrev nBuf : Space → Nat
  | .hbm => 14
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x8192, .f32⟩
  | .hbm, ⟨5, _⟩ => ⟨S_, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S4x3x2048, .f32⟩
  | .local _ .vmem, ⟨1, _⟩ => ⟨S4x3x2048, .f32⟩
  | .local _ .vmem, ⟨2, _⟩ => ⟨S4x3x512, .f32⟩
  | .local _ .vmem, ⟨3, _⟩ => ⟨S4x3x512, .f32⟩
  | .local _ .vmem, ⟨4, _⟩ => ⟨S4x2048, .f32⟩
  | .local _ .vmem, ⟨5, _⟩ => ⟨S4x2048, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_7 : BitVec 32 := 0#32
  let v43 : BitVec 1 := Scalar.cmpi .ne v42 c0_i32_7
  v43

def k0_cond2 (i : grid0.Coords) : BitVec 1 :=
  let arg1 : BitVec 32 := BitVec.ofNat 32 (i 1).val
  let c0_i32_8 : BitVec 32 := 0#32
  let v44 : BitVec 1 := Scalar.cmpi .sgt arg1 c0_i32_8
  let v45 : BitVec 32 := Scalar.extui v44
  let c0_i32_9 : BitVec 32 := 0#32
  let v46 : BitVec 1 := Scalar.cmpi .ne v45 c0_i32_9
  v46

def k0_cond3 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_10 : BitVec 32 := 0#32
  let v49 : BitVec 1 := Scalar.cmpi .ne v48 c0_i32_10
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x8192x3_S4x3x8192_0_2_1 : S4x8192x3.Transposes [0, 2, 1] S4x3x8192
  inb_S4x3x2048_S4x3x2048_0_0_0 : ∀ a, (![0, 0, 0] : Fin 3 → Nat) a + S4x3x2048.size a ≤ S4x3x2048.size a
  h_S4x3x2048 : 0 < S4x3x2048.numel
  shapeCasts_S4x3x2048_S4x3x2048 : S4x3x2048.ShapeCasts S4x3x2048
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  reduces_S4x3x512_S4x512 : S4x3x512.Reduces [1] S4x512
  slices_S4x3x2048_o0_0_0_S4x1x2048 : S4x3x2048.Slices ![0, 0, 0] S4x1x2048
  shapeCasts_S4x1x2048_S4x2048 : S4x1x2048.ShapeCasts S4x2048
  shapeCasts_S4x2048_S4x2048x1 : S4x2048.ShapeCasts S4x2048x1
  slices_S4x3x2048_o0_1_0_S4x1x2048 : S4x3x2048.Slices ![0, 1, 0] S4x1x2048
  slices_S4x3x2048_o0_2_0_S4x1x2048 : S4x3x2048.Slices ![0, 2, 0] S4x1x2048
  slices_S4x3x512_o0_0_0_S4x1x512 : S4x3x512.Slices ![0, 0, 0] S4x1x512
  shapeCasts_S4x1x512_S4x512 : S4x1x512.ShapeCasts S4x512
  shapeCasts_S4x512_S4x1x512 : S4x512.ShapeCasts S4x1x512
  slices_S4x3x512_o0_1_0_S4x1x512 : S4x3x512.Slices ![0, 1, 0] S4x1x512
  slices_S4x3x512_o0_2_0_S4x1x512 : S4x3x512.Slices ![0, 2, 0] S4x1x512
  broadcasts_S4x2048x1_S4x2048x512 : S4x2048x1.Broadcasts S4x2048x512
  broadcasts_S4x1x512_S4x2048x512 : S4x1x512.Broadcasts S4x2048x512
  reduces_S4x2048x512_S4x2048 : S4x2048x512.Reduces [2] S4x2048
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  reduces_S4x3x2048_S4x2048 : S4x3x2048.Reduces [1] S4x2048
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x2048.size a ≤ S4x3x8192.size a
  hwx0_0 : ∀ i : grid0.Coords, EltTy.bits .f32 = 32 ∨ (Rect.block (s := S4x3x8192) S4x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x8192.size a
  hwx0_2 : ∀ i : grid0.Coords, EltTy.bits .f32 = 32 ∨ (Rect.block (s := S4x8192) S4x2048.size (cc0_transform_2 i) (hinb0_2 i)).WholeWords (EltTy.packing .f32)

variable [Facts₀]

abbrev win0_0 : Pipeline.Window sig grid0 :=
  Pipeline.Window.ofSpec (Memref.whole main_v0) S4x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsBody.lean ====
/-
  The kernel body of the nearest-target kernel on any whole staging memrefs, in the three situations a grid point
  (ni, mj) can be in.  The body computes, from the query block and the target block, the tile's row minima
  "min over the tile's targets of |y|² − 2⟨x, y⟩" and then
    * at the first target tile (mj = 0) stores them over whatever the output buffer held;
    * at a later tile (mj > 0) stores the minimum of what the buffer holds and them;
    * at the last tile (mj = 15), after that, adds the queries' squared norms to what the buffer holds.
  Each run hands back the input buffers as they were and the output buffer with the stores it made, as a list of
  pieces the run itself finds.
-/
import proofs.«125232_j85667417686468_2_alg».proof.Proof.Gen.Kernel.Frame
import proofs.«125232_j85667417686468_2_alg».proof.Proof.Gen.Kernel.Skeleton

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as propositions over the grid coordinates. -/
abbrev isFirst (i : grid0.Coords) : Prop := k0_cond1 i = 1#1
abbrev isLater (i : grid0.Coords) : Prop := k0_cond2 i = 1#1
abbrev isLast (i : grid0.Coords) : Prop := k0_cond3 i = 1#1

set_option maxHeartbeats 1000000 in
/-- First target tile: the tile's row minima are stored over anything. -/
noncomputable def runFirst (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : isFirst i) (h2 : ¬isLater i) (h3 : ¬isLast i)
    (x : Vec F S4x3x2048 .f32) (y : Vec F S4x3x512 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ (∃ d, owns (c : Thread nD τ) arg4 fullShare d)
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later target tile that is not the last: the minimum of what the output buffer holds and the tile's row minima is stored. -/
noncomputable def runLater (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : ¬isFirst i) (h2 : isLater i) (h3 : ¬isLast i)
    (x : Vec F S4x3x2048 .f32) (y : Vec F S4x3x512 .f32) (o : Vec F S4x2048 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ owns (c : Thread nD τ) arg4 fullShare o
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The last target tile: the minimum is stored as at a later tile, read back, and the queries' squared norms added to it. -/
noncomputable def runLast (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : ¬isFirst i) (h2 : isLater i) (h3 : isLast i)
    (x : Vec F S4x3x2048 .f32) (y : Vec F S4x3x512 .f32) (o : Vec F S4x2048 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ owns (c : Thread nD τ) arg4 fullShare o
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Proof.K

end
-- ==== Proof.BitsFrame.lean ====
/-
  The frame of the nearest-target kernel's program: it runs to the end, faults nowhere and leaves its arguments as
  launched.  The grid is (ni, mj) = (4 query tiles) × (16 target tiles), mj innermost, so point t has mj = t mod 16.
  The output block of query tile ni stays in its staging buffer through the 16 points of that tile and is written
  back after the last; what it holds after point t is defined by recursion on t:
    mj = 0        the tile's row minima;
    0 < mj < 15   the minimum of what point t−1 left and the tile's row minima;
    mj = 15       that, plus the queries' squared norms.
  The proof data hands every input buffer back at its block, the invariant is the scoped rest and the generator
  register, nothing is owed.
-/
import proofs.«125232_j85667417686468_2_alg».proof.Proof.BitsBody

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid, in closed form -/

theorem first_iff : ∀ t : Fin cfg0.N, isFirst (grid0.coords t) ↔ t.val % 16 = 0 :=
  (by decide +kernel : ∀ t : Fin grid0.N, isFirst (grid0.coords t) ↔ t.val % 16 = 0)
theorem later_iff : ∀ t : Fin cfg0.N, isLater (grid0.coords t) ↔ t.val % 16 ≠ 0 :=
  (by decide +kernel : ∀ t : Fin grid0.N, isLater (grid0.coords t) ↔ t.val % 16 ≠ 0)
theorem last_iff : ∀ t : Fin cfg0.N, isLast (grid0.coords t) ↔ t.val % 16 = 15 :=
  (by decide +kernel : ∀ t : Fin grid0.N, isLast (grid0.coords t) ↔ t.val % 16 = 15)

/-- The output window is stored into at every point: one of the three conditions always holds. -/
theorem out_live : ∀ i : grid0.Coords, cfg0.idle 2 i = false := by decide +kernel
theorem out_live_at : ∀ t : Fin cfg0.N, cfg0.idle 2 (grid0.coords t) = false := fun t => out_live _
theorem in0_live : ∀ t : Fin cfg0.N, cfg0.idle 0 (grid0.coords t) = false := fun _ => rfl
theorem in1_live : ∀ t : Fin cfg0.N, cfg0.idle 1 (grid0.coords t) = false := fun _ => rfl

/-! ## What each case leaves in the output's staging buffer -/

/-- A fixed staging buffer of the output window, through which contents are stated. -/
abbrev VO : View sig .tc .vmem S4x2048 .f32 := (Memref.whole cc0_stg2_0 : Memref sig .tc .vmem S4x2048 .f32).view
abbrev ms0 (t : Fin cfg0.N) : Memref sig .tc .vmem S4x3x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048 .f32 := win0_2.stage (cfg0.slots t 2)
abbrev hs2 (t : Fin cfg0.N) : (ms2 t).IsWhole := hstage0_2 ((cfg0.slots t 2).cast nbuf0_2)

section Cases
variable (c : Dev nD) (i : grid0.Coords)
  (arg2 : Memref sig .tc .vmem S4x3x2048 .f32) (harg2 : arg2.IsWhole) (arg3 : Memref sig .tc .vmem S4x3x512 .f32) (harg3 : arg3.IsWhole)
  (arg4 : Memref sig .tc .vmem S4x2048 .f32) (harg4 : arg4.IsWhole)
  (x : Vec F S4x3x2048 .f32) (y : Vec F S4x3x512 .f32) (o : Vec F S4x2048 .f32)

theorem coverFirst (h1 : isFirst i) (h2 : ¬isLater i) (h3 : ¬isLast i) (j : S4x2048.Idx) :
    ∃ pc ∈ (runFirst c i arg2 harg2 arg3 harg3 arg4 harg4 h1 h2 h3 x y).1, j ∈ pc.1.set :=
  View.cover_of_tiledL (runFirst c i arg2 harg2 arg3 harg3 arg4 harg4 h1 h2 h3 x y).1 S4x2048.size (by sl_kernel_rfl) j
def outFirst (h1 : isFirst i) (h2 : ¬isLater i) (h3 : ¬isLast i) : Vec F S4x2048 .f32 :=
  VO.read (Elt F) (VO.writes (Elt F) VO.junk (runFirst c i arg2 harg2 arg3 harg3 arg4 harg4 h1 h2 h3 x y).1)

theorem coverLater (h1 : ¬isFirst i) (h2 : isLater i) (h3 : ¬isLast i) (j : S4x2048.Idx) :
    ∃ pc ∈ (runLater c i arg2 harg2 arg3 harg3 arg4 harg4 h1 h2 h3 x y o).1, j ∈ pc.1.set :=
  View.cover_of_tiledL (runLater c i arg2 harg2 arg3 harg3 arg4 harg4 h1 h2 h3 x y o).1 S4x2048.size (by sl_kernel_rfl) j
def outLater (h1 : ¬isFirst i) (h2 : isLater i) (h3 : ¬isLast i) : Vec F S4x2048 .f32 :=
  VO.read (Elt F) (VO.writes (Elt F) VO.junk (runLater c i arg2 harg2 arg3 harg3 arg4 harg4 h1 h2 h3 x y o).1)

theorem coverLast (h1 : ¬isFirst i) (h2 : isLater i) (h3 : isLast i) (j : S4x2048.Idx) :
    ∃ pc ∈ (runLast c i arg2 harg2 arg3 harg3 arg4 harg4 h1 h2 h3 x y o).1, j ∈ pc.1.set :=
  View.cover_of_tiledL (runLast c i arg2 harg2 arg3 harg3 arg4 harg4 h1 h2 h3 x y o).1 S4x2048.size (by sl_kernel_rfl) j
def outLast (h1 : ¬isFirst i) (h2 : isLater i) (h3 : isLast i) : Vec F S4x2048 .f32 :=
  VO.read (Elt F) (VO.writes (Elt F) VO.junk (runLast c i arg2 harg2 arg3 harg3 arg4 harg4 h1 h2 h3 x y o).1)
end Cases

/-! ## What the output's buffer holds after each point -/

theorem not_later_of (t : Fin cfg0.N) (h : t.val % 16 = 0) : ¬isLater (grid0.coords t) := fun hl => (later_iff t).mp hl h
theorem not_last_of (t : Fin cfg0.N) (h : ¬t.val % 16 = 15) : ¬isLast (grid0.coords t) := fun hl => h ((last_iff t).mp hl)
theorem not_first_of (t : Fin cfg0.N) (h : ¬t.val % 16 = 0) : ¬isFirst (grid0.coords t) := fun hf => h ((first_iff t).mp hf)

/-- The running minimum: what the output's staging buffer holds after the body at position `n`. -/
def heldAt (c : Dev nD) : (n : ℕ) → n < cfg0.N → Vec F S4x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (iblk m c 0 ⟨0, hn⟩) (iblk m c 1 ⟨0, hn⟩)
      ((first_iff ⟨0, hn⟩).mpr (Nat.zero_mod _)) (not_later_of ⟨0, hn⟩ (Nat.zero_mod _)) (not_last_of ⟨0, hn⟩ (by dsimp only; omega))
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩)
        ((first_iff ⟨n + 1, hn⟩).mpr h0) (not_later_of ⟨n + 1, hn⟩ h0) (not_last_of ⟨n + 1, hn⟩ (by dsimp only; omega))
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩) (heldAt c n (Nat.lt_of_succ_lt hn))
        (not_first_of ⟨n + 1, hn⟩ h0) ((later_iff ⟨n + 1, hn⟩).mpr h0) ((last_iff ⟨n + 1, hn⟩).mpr h15)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩) (heldAt c n (Nat.lt_of_succ_lt hn))
        (not_first_of ⟨n + 1, hn⟩ h0) ((later_iff ⟨n + 1, hn⟩).mpr h0) (not_last_of ⟨n + 1, hn⟩ h15)

theorem heldAt_first (c : Dev nD) (t : Fin cfg0.N) (h0 : t.val % 16 = 0) :
    heldAt m c t.val t.isLt = outFirst c (grid0.coords t) (ms0 t) (hs0 t) (ms1 t) (hs1 t) (ms2 t) (hs2 t) (iblk m c 0 t) (iblk m c 1 t)
      ((first_iff t).mpr h0) (not_later_of t h0) (not_last_of t (by omega)) := by
  obtain ⟨n, hn⟩ := t
  cases n with
  | zero => exact rfl
  | succ n => exact (dif_pos h0).trans rfl

theorem heldAt_last (c : Dev nD) (t : Fin cfg0.N) (h0 : ¬t.val % 16 = 0) (h15 : t.val % 16 = 15) :
    heldAt m c t.val t.isLt = outLast c (grid0.coords t) (ms0 t) (hs0 t) (ms1 t) (hs1 t) (ms2 t) (hs2 t) (iblk m c 0 t) (iblk m c 1 t)
      (heldAt m c (t.val - 1) (Nat.lt_of_le_of_lt (Nat.sub_le _ _) t.isLt))
      (not_first_of t h0) ((later_iff t).mpr h0) ((last_iff t).mpr h15) := by
  obtain ⟨n, hn⟩ := t
  cases n with
  | zero => exact absurd (Nat.zero_mod _) h0
  | succ n => exact (dif_neg h0).trans ((dif_pos h15).trans rfl)

theorem heldAt_later (c : Dev nD) (t : Fin cfg0.N) (h0 : ¬t.val % 16 = 0) (h15 : ¬t.val % 16 = 15) :
    heldAt m c t.val t.isLt = outLater c (grid0.coords t) (ms0 t) (hs0 t) (ms1 t) (hs1 t) (ms2 t) (hs2 t) (iblk m c 0 t) (iblk m c 1 t)
      (heldAt m c (t.val - 1) (Nat.lt_of_le_of_lt (Nat.sub_le _ _) t.isLt))
      (not_first_of t h0) ((later_iff t).mpr h0) (not_last_of t h15) := by
  obtain ⟨n, hn⟩ := t
  cases n with
  | zero => exact absurd (Nat.zero_mod _) h0
  | succ n => exact (dif_neg h0).trans ((dif_neg h15).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => heldAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = heldAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its query tile the output's buffer holds what the point before left: the
    block was not written back in between. -/
theorem before0_2_kept (c : Dev nD) (t : Fin cfg0.N) (h0 : ¬t.val % 16 = 0) (d) :
    (dats m 0 c).before 2 t d = heldAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    out_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from by
      unfold Dat.leavesExact; rw [in0_live t],
    show (dats m 0 c).leavesExact 1 t = owns (c : Thread nD τ) (ms1 t) fullShare ((dats m 0 c).after 1 t) from by
      unfold Dat.leavesExact; rw [in1_live t],
    show (dats m 0 c).leavesExact 2 t = owns (c : Thread nD τ) (ms2 t) fullShare ((dats m 0 c).after 2 t) from by
      unfold Dat.leavesExact; rw [out_live_at t],
    after0_0, after0_1, after0_2]
  by_cases h0 : t.val % 16 = 0
  · rw [heldAt_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (not_later_of t h0) (not_last_of t (by omega)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _ _)
  · simp only [before0_2_kept m c t h0]
    by_cases h15 : t.val % 16 = 15
    · rw [heldAt_last m c t h0 h15]
      unfold outLast
      iintro ⟨HΦ, Ho, ⟨%d0, H0⟩, ⟨%d1, H1⟩, ⟨%d2, H2⟩⟩
      iapply ((runLast c (grid0.coords t) _ _ _ _ _ _ (not_first_of t h0) ((later_iff t).mpr h0) ((last_iff t).mpr h15) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _)
    · rw [heldAt_later m c t h0 h15]
      unfold outLater
      iintro ⟨HΦ, Ho, ⟨%d0, H0⟩, ⟨%d1, H1⟩, ⟨%d2, H2⟩⟩
      iapply ((runLater c (grid0.coords t) _ _ _ _ _ _ (not_first_of t h0) ((later_iff t).mpr h0) (not_last_of t h15) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLater c _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.IdealBody.lean ====
/-
  The kernel body of the nearest-target kernel on any whole staging memrefs, in the three situations a grid point
  (ni, mj) can be in.  The body computes, from the query block and the target block, the tile's row minima
  "min over the tile's targets of |y|² − 2⟨x, y⟩" and then
    * at the first target tile (mj = 0) stores them over whatever the output buffer held;
    * at a later tile (mj > 0) stores the minimum of what the buffer holds and them;
    * at the last tile (mj = 15), after that, adds the queries' squared norms to what the buffer holds.
  Each run hands back the input buffers as they were and the output buffer with the stores it made, as a list of
  pieces the run itself finds.
-/
import proofs.«125232_j85667417686468_2_alg».proof.Proof.Gen.KernelIdeal.Frame
import proofs.«125232_j85667417686468_2_alg».proof.Proof.Gen.KernelIdeal.Skeleton

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as propositions over the grid coordinates. -/
abbrev isFirst (i : grid0.Coords) : Prop := k0_cond1 i = 1#1
abbrev isLater (i : grid0.Coords) : Prop := k0_cond2 i = 1#1
abbrev isLast (i : grid0.Coords) : Prop := k0_cond3 i = 1#1

set_option maxHeartbeats 1000000 in
/-- First target tile: the tile's row minima are stored over anything. -/
noncomputable def runFirst (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : isFirst i) (h2 : ¬isLater i) (h3 : ¬isLast i)
    (x : Vec F S4x3x2048 .f32) (y : Vec F S4x3x512 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ (∃ d, owns (c : Thread nD τ) arg4 fullShare d)
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later target tile that is not the last: the minimum of what the output buffer holds and the tile's row minima is stored. -/
noncomputable def runLater (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : ¬isFirst i) (h2 : isLater i) (h3 : ¬isLast i)
    (x : Vec F S4x3x2048 .f32) (y : Vec F S4x3x512 .f32) (o : Vec F S4x2048 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ owns (c : Thread nD τ) arg4 fullShare o
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The last target tile: the minimum is stored as at a later tile, read back, and the queries' squared norms added to it. -/
noncomputable def runLast (c : Dev nD) (i : grid0.Coords)
    (arg2 : Memref sig .tc .vmem S4x3x2048 .f32) (harg2 : arg2.IsWhole) (arg3 : Memref sig .tc .vmem S4x3x512 .f32) (harg3 : arg3.IsWhole)
    (arg4 : Memref sig .tc .vmem S4x2048 .f32) (harg4 : arg4.IsWhole)
    (h1 : ¬isFirst i) (h2 : isLater i) (h3 : isLast i)
    (x : Vec F S4x3x2048 .f32) (y : Vec F S4x3x512 .f32) (o : Vec F S4x2048 .f32) :
    { L : List (View.Piece (Elt F) S4x2048 .f32) //
      ∀ (E : Set ℕ) (K : PUnit → sProp 𝕄),
        iprop(owns (c : Thread nD τ) arg2 fullShare x ∗ owns (c : Thread nD τ) arg3 fullShare y ∗ owns (c : Thread nD τ) arg4 fullShare o
            ∗ (iprop(owns (c : Thread nD τ) arg2 fullShare x ∗ owns (c : Thread nD τ) arg3 fullShare y
                ∗ (∃ f, arg4.view.loc (c : Thread nD τ) ↦[arg4.view.set]{fullShare} arg4.view.writes (Elt F) f L)) -∗ K ⟨⟩))
          ⊢ wp frame (wpE (defs₀ (F := F)) Variants.none c none) E (cc0__chamfer_kernel i arg2 harg2 arg3 harg3 arg4 harg4) K } := by
  refine ⟨?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Proof.KI

end
-- ==== Proof.IdealFrame.lean ====
/-
  The frame of the nearest-target kernel's program: it runs to the end, faults nowhere and leaves its arguments as
  launched.  The grid is (ni, mj) = (4 query tiles) × (16 target tiles), mj innermost, so point t has mj = t mod 16.
  The output block of query tile ni stays in its staging buffer through the 16 points of that tile and is written
  back after the last; what it holds after point t is defined by recursion on t:
    mj = 0        the tile's row minima;
    0 < mj < 15   the minimum of what point t−1 left and the tile's row minima;
    mj = 15       that, plus the queries' squared norms.
  The proof data hands every input buffer back at its block, the invariant is the scoped rest and the generator
  register, nothing is owed.
-/
import proofs.«125232_j85667417686468_2_alg».proof.Proof.IdealBody

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid, in closed form -/

theorem first_iff : ∀ t : Fin cfg0.N, isFirst (grid0.coords t) ↔ t.val % 16 = 0 :=
  (by decide +kernel : ∀ t : Fin grid0.N, isFirst (grid0.coords t) ↔ t.val % 16 = 0)
theorem later_iff : ∀ t : Fin cfg0.N, isLater (grid0.coords t) ↔ t.val % 16 ≠ 0 :=
  (by decide +kernel : ∀ t : Fin grid0.N, isLater (grid0.coords t) ↔ t.val % 16 ≠ 0)
theorem last_iff : ∀ t : Fin cfg0.N, isLast (grid0.coords t) ↔ t.val % 16 = 15 :=
  (by decide +kernel : ∀ t : Fin grid0.N, isLast (grid0.coords t) ↔ t.val % 16 = 15)

/-- The output window is stored into at every point: one of the three conditions always holds. -/
theorem out_live : ∀ i : grid0.Coords, cfg0.idle 2 i = false := by decide +kernel
theorem out_live_at : ∀ t : Fin cfg0.N, cfg0.idle 2 (grid0.coords t) = false := fun t => out_live _
theorem in0_live : ∀ t : Fin cfg0.N, cfg0.idle 0 (grid0.coords t) = false := fun _ => rfl
theorem in1_live : ∀ t : Fin cfg0.N, cfg0.idle 1 (grid0.coords t) = false := fun _ => rfl

/-! ## What each case leaves in the output's staging buffer -/

/-- A fixed staging buffer of the output window, through which contents are stated. -/
abbrev VO : View sig .tc .vmem S4x2048 .f32 := (Memref.whole cc0_stg2_0 : Memref sig .tc .vmem S4x2048 .f32).view
abbrev ms0 (t : Fin cfg0.N) : Memref sig .tc .vmem S4x3x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048 .f32 := win0_2.stage (cfg0.slots t 2)
abbrev hs2 (t : Fin cfg0.N) : (ms2 t).IsWhole := hstage0_2 ((cfg0.slots t 2).cast nbuf0_2)

section Cases
variable (c : Dev nD) (i : grid0.Coords)
  (arg2 : Memref sig .tc .vmem S4x3x2048 .f32) (harg2 : arg2.IsWhole) (arg3 : Memref sig .tc .vmem S4x3x512 .f32) (harg3 : arg3.IsWhole)
  (arg4 : Memref sig .tc .vmem S4x2048 .f32) (harg4 : arg4.IsWhole)
  (x : Vec F S4x3x2048 .f32) (y : Vec F S4x3x512 .f32) (o : Vec F S4x2048 .f32)

theorem coverFirst (h1 : isFirst i) (h2 : ¬isLater i) (h3 : ¬isLast i) (j : S4x2048.Idx) :
    ∃ pc ∈ (runFirst c i arg2 harg2 arg3 harg3 arg4 harg4 h1 h2 h3 x y).1, j ∈ pc.1.set :=
  View.cover_of_tiledL (runFirst c i arg2 harg2 arg3 harg3 arg4 harg4 h1 h2 h3 x y).1 S4x2048.size (by sl_kernel_rfl) j
def outFirst (h1 : isFirst i) (h2 : ¬isLater i) (h3 : ¬isLast i) : Vec F S4x2048 .f32 :=
  VO.read (Elt F) (VO.writes (Elt F) VO.junk (runFirst c i arg2 harg2 arg3 harg3 arg4 harg4 h1 h2 h3 x y).1)

theorem coverLater (h1 : ¬isFirst i) (h2 : isLater i) (h3 : ¬isLast i) (j : S4x2048.Idx) :
    ∃ pc ∈ (runLater c i arg2 harg2 arg3 harg3 arg4 harg4 h1 h2 h3 x y o).1, j ∈ pc.1.set :=
  View.cover_of_tiledL (runLater c i arg2 harg2 arg3 harg3 arg4 harg4 h1 h2 h3 x y o).1 S4x2048.size (by sl_kernel_rfl) j
def outLater (h1 : ¬isFirst i) (h2 : isLater i) (h3 : ¬isLast i) : Vec F S4x2048 .f32 :=
  VO.read (Elt F) (VO.writes (Elt F) VO.junk (runLater c i arg2 harg2 arg3 harg3 arg4 harg4 h1 h2 h3 x y o).1)

theorem coverLast (h1 : ¬isFirst i) (h2 : isLater i) (h3 : isLast i) (j : S4x2048.Idx) :
    ∃ pc ∈ (runLast c i arg2 harg2 arg3 harg3 arg4 harg4 h1 h2 h3 x y o).1, j ∈ pc.1.set :=
  View.cover_of_tiledL (runLast c i arg2 harg2 arg3 harg3 arg4 harg4 h1 h2 h3 x y o).1 S4x2048.size (by sl_kernel_rfl) j
def outLast (h1 : ¬isFirst i) (h2 : isLater i) (h3 : isLast i) : Vec F S4x2048 .f32 :=
  VO.read (Elt F) (VO.writes (Elt F) VO.junk (runLast c i arg2 harg2 arg3 harg3 arg4 harg4 h1 h2 h3 x y o).1)
end Cases

/-! ## What the output's buffer holds after each point -/

theorem not_later_of (t : Fin cfg0.N) (h : t.val % 16 = 0) : ¬isLater (grid0.coords t) := fun hl => (later_iff t).mp hl h
theorem not_last_of (t : Fin cfg0.N) (h : ¬t.val % 16 = 15) : ¬isLast (grid0.coords t) := fun hl => h ((last_iff t).mp hl)
theorem not_first_of (t : Fin cfg0.N) (h : ¬t.val % 16 = 0) : ¬isFirst (grid0.coords t) := fun hf => h ((first_iff t).mp hf)

/-- The running minimum: what the output's staging buffer holds after the body at position `n`. -/
def heldAt (c : Dev nD) : (n : ℕ) → n < cfg0.N → Vec F S4x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (iblk m c 0 ⟨0, hn⟩) (iblk m c 1 ⟨0, hn⟩)
      ((first_iff ⟨0, hn⟩).mpr (Nat.zero_mod _)) (not_later_of ⟨0, hn⟩ (Nat.zero_mod _)) (not_last_of ⟨0, hn⟩ (by dsimp only; omega))
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩)
        ((first_iff ⟨n + 1, hn⟩).mpr h0) (not_later_of ⟨n + 1, hn⟩ h0) (not_last_of ⟨n + 1, hn⟩ (by dsimp only; omega))
    else if h15 : (n + 1) % 16 = 15 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩) (heldAt c n (Nat.lt_of_succ_lt hn))
        (not_first_of ⟨n + 1, hn⟩ h0) ((later_iff ⟨n + 1, hn⟩).mpr h0) ((last_iff ⟨n + 1, hn⟩).mpr h15)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (iblk m c 0 ⟨n + 1, hn⟩) (iblk m c 1 ⟨n + 1, hn⟩) (heldAt c n (Nat.lt_of_succ_lt hn))
        (not_first_of ⟨n + 1, hn⟩ h0) ((later_iff ⟨n + 1, hn⟩).mpr h0) (not_last_of ⟨n + 1, hn⟩ h15)

theorem heldAt_first (c : Dev nD) (t : Fin cfg0.N) (h0 : t.val % 16 = 0) :
    heldAt m c t.val t.isLt = outFirst c (grid0.coords t) (ms0 t) (hs0 t) (ms1 t) (hs1 t) (ms2 t) (hs2 t) (iblk m c 0 t) (iblk m c 1 t)
      ((first_iff t).mpr h0) (not_later_of t h0) (not_last_of t (by omega)) := by
  obtain ⟨n, hn⟩ := t
  cases n with
  | zero => exact rfl
  | succ n => exact (dif_pos h0).trans rfl

theorem heldAt_last (c : Dev nD) (t : Fin cfg0.N) (h0 : ¬t.val % 16 = 0) (h15 : t.val % 16 = 15) :
    heldAt m c t.val t.isLt = outLast c (grid0.coords t) (ms0 t) (hs0 t) (ms1 t) (hs1 t) (ms2 t) (hs2 t) (iblk m c 0 t) (iblk m c 1 t)
      (heldAt m c (t.val - 1) (Nat.lt_of_le_of_lt (Nat.sub_le _ _) t.isLt))
      (not_first_of t h0) ((later_iff t).mpr h0) ((last_iff t).mpr h15) := by
  obtain ⟨n, hn⟩ := t
  cases n with
  | zero => exact absurd (Nat.zero_mod _) h0
  | succ n => exact (dif_neg h0).trans ((dif_pos h15).trans rfl)

theorem heldAt_later (c : Dev nD) (t : Fin cfg0.N) (h0 : ¬t.val % 16 = 0) (h15 : ¬t.val % 16 = 15) :
    heldAt m c t.val t.isLt = outLater c (grid0.coords t) (ms0 t) (hs0 t) (ms1 t) (hs1 t) (ms2 t) (hs2 t) (iblk m c 0 t) (iblk m c 1 t)
      (heldAt m c (t.val - 1) (Nat.lt_of_le_of_lt (Nat.sub_le _ _) t.isLt))
      (not_first_of t h0) ((later_iff t).mpr h0) (not_last_of t h15) := by
  obtain ⟨n, hn⟩ := t
  cases n with
  | zero => exact absurd (Nat.zero_mod _) h0
  | succ n => exact (dif_neg h0).trans ((dif_neg h15).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => heldAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = heldAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its query tile the output's buffer holds what the point before left: the
    block was not written back in between. -/
theorem before0_2_kept (c : Dev nD) (t : Fin cfg0.N) (h0 : ¬t.val % 16 = 0) (d) :
    (dats m 0 c).before 2 t d = heldAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    out_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from by
      unfold Dat.leavesExact; rw [in0_live t],
    show (dats m 0 c).leavesExact 1 t = owns (c : Thread nD τ) (ms1 t) fullShare ((dats m 0 c).after 1 t) from by
      unfold Dat.leavesExact; rw [in1_live t],
    show (dats m 0 c).leavesExact 2 t = owns (c : Thread nD τ) (ms2 t) fullShare ((dats m 0 c).after 2 t) from by
      unfold Dat.leavesExact; rw [out_live_at t],
    after0_0, after0_1, after0_2]
  by_cases h0 : t.val % 16 = 0
  · rw [heldAt_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (not_later_of t h0) (not_last_of t (by omega)) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _ _)
  · simp only [before0_2_kept m c t h0]
    by_cases h15 : t.val % 16 = 15
    · rw [heldAt_last m c t h0 h15]
      unfold outLast
      iintro ⟨HΦ, Ho, ⟨%d0, H0⟩, ⟨%d1, H1⟩, ⟨%d2, H2⟩⟩
      iapply ((runLast c (grid0.coords t) _ _ _ _ _ _ (not_first_of t h0) ((later_iff t).mpr h0) ((last_iff t).mpr h15) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _)
    · rw [heldAt_later m c t h0 h15]
      unfold outLater
      iintro ⟨HΦ, Ho, ⟨%d0, H0⟩, ⟨%d1, H1⟩, ⟨%d2, H2⟩⟩
      iapply ((runLater c (grid0.coords t) _ _ _ _ _ _ (not_first_of t h0) ((later_iff t).mpr h0) (not_last_of t h15) (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLater c _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.IdealOuts.lean ====
/-
  What each case of the body leaves in the output's staging buffer, as the body's named arithmetic: the stores of a
  case cover the buffer, so reading them back gives the last stored value —
    first tile   the tile's row minima;
    later tile   min(what was there, the tile's row minima);
    last tile    that minimum, plus the queries' squared norms.
-/
import proofs.«125232_j85667417686468_2_alg».proof.Proof.IdealFrame
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S4x3x2048 .f32) (harg2 : arg2.IsWhole) (arg3 : Memref sig .tc .vmem S4x3x512 .f32) (harg3 : arg3.IsWhole)
  (arg4 : Memref sig .tc .vmem S4x2048 .f32) (harg4 : arg4.IsWhole)
  (x : Vec F S4x3x2048 .f32) (y : Vec F S4x3x512 .f32) (o : Vec F S4x2048 .f32)

/-- The offsets of a whole-buffer rectangle are all zero, at rank 2 and at rank 3. -/
theorem zeroOff2 : (![0, 0] : Fin 2 → ℕ) = fun _ => 0 := funext fun a => by fin_cases a <;> rfl
theorem zeroOff3 : (![0, 0, 0] : Fin 3 → ℕ) = fun _ => 0 := funext fun a => by fin_cases a <;> rfl

/-- First tile: the one store covers the buffer, so the buffer reads back its value, the row minima of the two
    blocks as loaded whole. -/
theorem outFirst_eq (h1 : isFirst i) (h2 : ¬isLater i) (h3 : ¬isLast i) :
    outFirst c i arg2 harg2 arg3 harg3 arg4 harg4 x y h1 h2 h3 = k0_pay4 x y := by
  unfold outFirst
  rw [View.read_writes_eq_canon _ _ _ (coverFirst c i arg2 harg2 arg3 harg3 arg4 harg4 x y h1 h2 h3)]
  unfold runFirst
  dsimp only
  sl_unfold_words
  rw [View.canon_unit_zero (S := S4x2048) zeroOff2]
  simp only [View.readAt_eq_ld, harg2.read_unread, harg3.read_unread, View.ld_unit_zero (S := S4x3x2048) zeroOff3,
    View.ld_unit_zero (S := S4x3x512) zeroOff3]

/-- Later tile: the one store covers the buffer; its value is the minimum of the buffer as loaded whole (the prior
    contents) and the row minima. -/
theorem outLater_eq (h1 : ¬isFirst i) (h2 : isLater i) (h3 : ¬isLast i) :
    outLater c i arg2 harg2 arg3 harg3 arg4 harg4 x y o h1 h2 h3 = k0_pay1 (k0_pay4 x y) o := by
  unfold outLater
  rw [View.read_writes_eq_canon _ _ _ (coverLater c i arg2 harg2 arg3 harg3 arg4 harg4 x y o h1 h2 h3)]
  unfold runLater
  dsimp only
  sl_unfold_words
  rw [View.canon_unit_zero (S := S4x2048) zeroOff2]
  simp only [View.readAt_eq_ld, harg2.read_unread, harg3.read_unread, harg4.read_unread, View.ld_unit_zero (S := S4x3x2048) zeroOff3,
    View.ld_unit_zero (S := S4x3x512) zeroOff3, View.ld_unit_zero (S := S4x2048) zeroOff2]

/-- Last tile: two stores, each covering the buffer, so the later one is what is read back; its value adds the
    queries' squared norms to the buffer as loaded after the first store, which is that store's value. -/
theorem outLast_eq (h1 : ¬isFirst i) (h2 : isLater i) (h3 : isLast i) :
    outLast c i arg2 harg2 arg3 harg3 arg4 harg4 x y o h1 h2 h3 = k0_pay2 (k0_pay3 x) (k0_pay1 (k0_pay4 x y) o) := by
  unfold outLast
  rw [View.read_writes_eq_canon _ _ _ (coverLast c i arg2 harg2 arg3 harg3 arg4 harg4 x y o h1 h2 h3)]
  unfold runLast
  dsimp only
  sl_unfold_words
  rw [View.canon_cons_unit_zero (S := S4x2048) zeroOff2]
  simp only [View.readCov_unit_zero (S := S4x2048) _ zeroOff2, View.readAt_eq_ld, harg2.read_unread, harg3.read_unread, harg4.read_unread,
    View.ld_unit_zero (S := S4x3x2048) zeroOff3, View.ld_unit_zero (S := S4x3x512) zeroOff3, View.ld_unit_zero (S := S4x2048) zeroOff2]
end

end Cert.Proof.KI

end
-- ==== Proof.LibGlb.lean ====
/-
  Order facts on the extended reals behind "nearest target": a quantity `a` is the greatest lower bound of a finite
  nonempty family `t` when `z ≤ a ↔ ∀ k, z ≤ t k`.  Such a bound is attained, so adding a constant `c` to it gives
  the greatest lower bound of `t k + c` — with no condition on `c`: the sum on the extended reals is monotone, and
  an attained minimum moves with it.  A fold of `min` from `+∞` is the greatest lower bound of what it folds, and
  min(a, b) is the greatest lower bound of two families joined.
-/
import Idealize.ShloMosaic.PureOps.Ideal

namespace Cert.Proof.MinLaw

/-- `a` is the greatest lower bound of the family `t`. -/
def IsGlb {ι : Type} (a : EReal) (t : ι → EReal) : Prop := ∀ z : EReal, z ≤ a ↔ ∀ k, z ≤ t k

theorem IsGlb.le {ι : Type} {a : EReal} {t : ι → EReal} (h : IsGlb a t) (k : ι) : a ≤ t k := (h a).mp le_rfl k

/-- Two greatest lower bounds of one family are equal. -/
theorem IsGlb.unique {ι : Type} {a b : EReal} {t : ι → EReal} (ha : IsGlb a t) (hb : IsGlb b t) : a = b :=
  le_antisymm ((hb a).mpr ((ha a).mp le_rfl)) ((ha b).mpr ((hb b).mp le_rfl))

/-- Over a finite nonempty family the bound is attained. -/
theorem IsGlb.attained {ι : Type} [Finite ι] [Nonempty ι] {a : EReal} {t : ι → EReal} (h : IsGlb a t) : ∃ k, a = t k := by
  obtain ⟨k, hk⟩ := Finite.exists_min t
  exact ⟨k, le_antisymm (h.le k) ((h (t k)).mpr hk)⟩

/-- Adding a constant to the greatest lower bound of a finite nonempty family bounds the shifted family. -/
theorem IsGlb.add_const {ι : Type} [Finite ι] [Nonempty ι] {a : EReal} {t : ι → EReal} (h : IsGlb a t) (c : EReal) :
    IsGlb (a + c) fun k => t k + c := by
  intro z
  constructor
  · intro hz k
    exact hz.trans (add_le_add (h.le k) (le_refl c))
  · intro hz
    obtain ⟨k, hk⟩ := h.attained
    rw [hk]; exact hz k

/-- A fold of `min` from `+∞` over a whole finite index type is the greatest lower bound of the folded family. -/
theorem isGlb_fold_min {ι : Type} [Fintype ι] (init : EReal) (hinit : init = ⊤) (f : ι → EReal) :
    IsGlb ((Finset.univ : Finset ι).fold min init f) f := by
  intro z
  rw [Finset.le_fold_min, hinit]
  simp

/-- The minimum of the bounds of two families bounds the family that is their join through a map covering it. -/
theorem IsGlb.min_join {ι κ μ : Type} {a b : EReal} {s : ι → EReal} {t : κ → EReal} {u : μ → EReal}
    (ha : IsGlb a s) (hb : IsGlb b t)
    (hu : ∀ z : EReal, (∀ k, z ≤ u k) ↔ ((∀ i, z ≤ s i) ∧ ∀ j, z ≤ t j)) : IsGlb (min a b) u := by
  intro z
  rw [le_min_iff, ha z, hb z, hu z]

/-- The same bound of a family stated two ways. -/
theorem IsGlb.congr {ι : Type} {a : EReal} {s t : ι → EReal} (h : IsGlb a s) (hst : ∀ k, s k = t k) : IsGlb a t := by
  intro z; rw [h z]; exact forall_congr' fun k => by rw [hst k]

/-- Rearranging one distance term: (|y|² − 2⟨x,y⟩) + |x|² = (|x|² + |y|²) − 2⟨x,y⟩ on the extended reals. -/
theorem term_rearrange (ysq p xsq : EReal) : (ysq - p) + xsq = (xsq + ysq) - p := by
  rw [sub_eq_add_neg, sub_eq_add_neg, add_right_comm, add_comm ysq xsq]

end Cert.Proof.MinLaw
-- ==== Proof.Terms.lean ====
/-
  The quantities of "squared distance to the nearest target", over coordinate-major point clouds: an array
  `x : [4, 3, N]` holds, for batch b and point n, the coordinates x(b, 0, n), x(b, 1, n), x(b, 2, n).
    sqNorm x b n      = Σ_d x(b,d,n)²                         the point's squared norm
    inner x y b n k   = (x₀y₀ + x₁y₁) + x₂y₂                    the inner product, summed in the kernel's order
    term x y b n k    = sqNorm y b k − 2·inner x y b n k        the distance to target k without the query's norm
  so that |x_n − y_k|² = term x y b n k + sqNorm x b n.  The factor 2 is kept as its float word.
-/
import Idealize.ShloMosaic.Lib.ValueIdx
import proofs.«125232_j85667417686468_2_alg».proof.Proof.LibGlb

noncomputable section

namespace Cert.Proof.Terms

open Idealize.ShloMosaic Idealize.ShloMosaic.ValueIdx

/-- The float word of 2.0, read on the extended reals. -/
abbrev two : EReal := Ideal.ofBits .f32 0x40000000#32

/-- A point's squared norm. -/
def sqNorm {N : ℕ} (x : (⟨3, ![4, 3, N]⟩ : Shape).Idx → EReal) (b : Fin 4) (n : Fin N) : EReal :=
  ∑ d : Fin 3, x (ix3 b d n) * x (ix3 b d n)

/-- The inner product of query point n and target point k, the three products added left to right. -/
def inner {N M : ℕ} (x : (⟨3, ![4, 3, N]⟩ : Shape).Idx → EReal) (y : (⟨3, ![4, 3, M]⟩ : Shape).Idx → EReal)
    (b : Fin 4) (n : Fin N) (k : Fin M) : EReal :=
  (x (ix3 b 0 n) * y (ix3 b 0 k) + x (ix3 b 1 n) * y (ix3 b 1 k)) + x (ix3 b 2 n) * y (ix3 b 2 k)

/-- The squared distance from query n to target k, less the query's squared norm. -/
def term {N M : ℕ} (x : (⟨3, ![4, 3, N]⟩ : Shape).Idx → EReal) (y : (⟨3, ![4, 3, M]⟩ : Shape).Idx → EReal)
    (b : Fin 4) (n : Fin N) (k : Fin M) : EReal :=
  sqNorm y b k - two * inner x y b n k

end Cert.Proof.Terms

end
-- ==== Proof.IdealTile.lean ====
/-
  The body's arithmetic read at an index, on the extended reals.  From a query block x : [4,3,2048] and a target block
  y : [4,3,512] the body forms, for batch b, query row r and target column k, the term
  "|y_k|² − 2·(x₀y₀ + x₁y₁ + x₂y₂)" and takes its minimum over the 512 columns from +∞: that minimum is the greatest
  lower bound of the 512 terms.  The later-tile store is an entrywise minimum, the last-tile store adds the query's
  squared norm.
-/
import proofs.«125232_j85667417686468_2_alg».proof.Proof.Gen.KernelIdeal.Skeleton
import proofs.«125232_j85667417686468_2_alg».proof.Proof.Terms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Proof.MinLaw Cert.Proof.Terms

/-! ## Layout operations at an index given by coordinates -/

section Layout
variable {α : Type}

/-- An `[a, 1, b]` array cast to `[a, b]` reads, at `(i, j)`, the operand at `(i, 0, j)`: the two row-major
    positions are `(i·1 + 0)·b + j` and `i·b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, b, 1]` broadcast along a new last extent `c` reads, at `(i, j, k)`, the column at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A row `[a, 1, c]` broadcast along a new middle extent `b` reads, at `(i, j, k)`, the row at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## One-axis reductions at an index given by coordinates -/

section Reduce

/-- A `<minimumf>` reduction over ONE axis, read on the extended reals: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The reduced index `(i, j)` of an `[a, b, c]` array reduced over its last axis, with the coordinate `k` put back,
    is `(i, j, k)`. -/
theorem lift_axis2 {a b c : ℕ} (h : (⟨3, ![a, b, c]⟩ : Shape).Reduces [2] (⟨2, ![a, b]⟩ : Shape)) (i : Fin a) (j : Fin b)
    (k : Fin c) : h.lift (ix2 i j) k = ix3 i j k := by
  funext d; apply Fin.ext
  fin_cases d <;> rfl

/-- The reduced index `(i, k)` of an `[a, b, c]` array reduced over its middle axis, with the coordinate `d` put back,
    is `(i, d, k)`. -/
theorem lift_axis1 {a b c : ℕ} (h : (⟨3, ![a, b, c]⟩ : Shape).Reduces [1] (⟨2, ![a, c]⟩ : Shape)) (i : Fin a) (k : Fin c)
    (d : Fin b) : h.lift (ix2 i k) d = ix3 i d k := by
  funext e; apply Fin.ext
  fin_cases e <;> rfl

end Reduce

/-! ## The tile's three kinds of operand, read at (b, r, k) -/

section Reads
variable {α : Type}

/-- Coordinate row `o` of a query block `[4, 3, N]`, taken as a column `[4, N, 1]` and spread over `M` target columns,
    reads at `(b, r, k)` the block at `(b, o, r)`. -/
theorem colRead {N M : ℕ} (o : ℕ) (ho : o < 3) (X : (⟨3, ![4, 3, N]⟩ : Shape).Idx → α)
    (hs : (⟨3, ![4, 3, N]⟩ : Shape).Slices ![0, o, 0] ⟨3, ![4, 1, N]⟩)
    (hc1 : (⟨3, ![4, 1, N]⟩ : Shape).ShapeCasts ⟨2, ![4, N]⟩) (hc2 : (⟨2, ![4, N]⟩ : Shape).ShapeCasts ⟨3, ![4, N, 1]⟩)
    (hb : (⟨3, ![4, N, 1]⟩ : Shape).Broadcasts ⟨3, ![4, N, M]⟩) (b : Fin 4) (r : Fin N) (k : Fin M) :
    broadcastTo ⟨3, ![4, N, M]⟩
        (shapeCast ⟨3, ![4, N, 1]⟩ (shapeCast ⟨2, ![4, N]⟩ (extractStridedSlice ⟨3, ![4, 1, N]⟩ ![0, o, 0] X hs) hc1) hc2) hb
        (ix3 b r k)
      = X (ix3 b (⟨o, ho⟩ : Fin 3) r) :=
  (broadcastTo_ab1_abc_apply _ hb b r k).trans
    ((shapeCast_ab_ab1_apply _ hc2 b r 0).trans
      ((shapeCast_a1b_ab_apply _ hc1 b r).trans
        (slice3_axis1_apply o X hs b (0 : Fin 1) r ⟨o, ho⟩ (Nat.add_zero o).symm)))

/-- Coordinate row `o` of a target block `[4, 3, M]`, taken as a row `[4, 1, M]` and spread over `N` query rows,
    reads at `(b, r, k)` the block at `(b, o, k)`. -/
theorem rowRead {N M : ℕ} (o : ℕ) (ho : o < 3) (Y : (⟨3, ![4, 3, M]⟩ : Shape).Idx → α)
    (hs : (⟨3, ![4, 3, M]⟩ : Shape).Slices ![0, o, 0] ⟨3, ![4, 1, M]⟩)
    (hc1 : (⟨3, ![4, 1, M]⟩ : Shape).ShapeCasts ⟨2, ![4, M]⟩) (hc2 : (⟨2, ![4, M]⟩ : Shape).ShapeCasts ⟨3, ![4, 1, M]⟩)
    (hb : (⟨3, ![4, 1, M]⟩ : Shape).Broadcasts ⟨3, ![4, N, M]⟩) (b : Fin 4) (r : Fin N) (k : Fin M) :
    broadcastTo ⟨3, ![4, N, M]⟩
        (shapeCast ⟨3, ![4, 1, M]⟩ (shapeCast ⟨2, ![4, M]⟩ (extractStridedSlice ⟨3, ![4, 1, M]⟩ ![0, o, 0] Y hs) hc1) hc2) hb
        (ix3 b r k)
      = Y (ix3 b (⟨o, ho⟩ : Fin 3) k) :=
  (broadcastTo_a1c_abc_apply _ hb b r k).trans
    ((shapeCast_ab_a1b_apply _ hc2 b 0 k).trans
      ((shapeCast_a1b_ab_apply _ hc1 b k).trans
        (slice3_axis1_apply o Y hs b (0 : Fin 1) k ⟨o, ho⟩ (Nat.add_zero o).symm)))

end Reads

/-- The sum over the three coordinates of a block's entrywise square, at `(b, k)`, is the point's squared norm. -/
theorem sqSum_apply {M : ℕ} (Y : FVec Ideal (⟨3, ![4, 3, M]⟩ : Shape) .f32) (acc : BitVec 32)
    (h : (⟨3, ![4, 3, M]⟩ : Shape).Reduces [1] (⟨2, ![4, M]⟩ : Shape)) (hφ : FKind.Formats .f32)
    (hacc : acc = FKind.add.neutral .f32 hφ) (b : Fin 4) (k : Fin M) :
    multiReduction (F := Ideal) .add [1] (⟨2, ![4, M]⟩ : Shape) (mulf Y Y) acc h hφ hacc (ix2 b k) = sqNorm Y b k := by
  rw [Ideal.multiReduction_add_single]
  unfold sqNorm
  exact Finset.sum_congr rfl fun d _ => congrArg (fun i => Y i * Y i) (lift_axis1 h b k d)

/-- The target norms `[4, M]`, taken as a row `[4, 1, M]` and spread over `N` query rows, read at `(b, r, k)` the
    squared norm of target `k`. -/
theorem normRead {N M : ℕ} (Y : FVec Ideal (⟨3, ![4, 3, M]⟩ : Shape) .f32) (acc : BitVec 32)
    (h : (⟨3, ![4, 3, M]⟩ : Shape).Reduces [1] (⟨2, ![4, M]⟩ : Shape)) (hφ : FKind.Formats .f32)
    (hacc : acc = FKind.add.neutral .f32 hφ) (hc : (⟨2, ![4, M]⟩ : Shape).ShapeCasts ⟨3, ![4, 1, M]⟩)
    (hb : (⟨3, ![4, 1, M]⟩ : Shape).Broadcasts ⟨3, ![4, N, M]⟩) (b : Fin 4) (r : Fin N) (k : Fin M) :
    broadcastTo ⟨3, ![4, N, M]⟩
        (shapeCast ⟨3, ![4, 1, M]⟩ (multiReduction (F := Ideal) .add [1] (⟨2, ![4, M]⟩ : Shape) (mulf Y Y) acc h hφ hacc) hc) hb
        (ix3 b r k)
      = sqNorm Y b k :=
  (broadcastTo_a1c_abc_apply _ hb b r k).trans
    ((shapeCast_ab_a1b_apply _ hc b 0 k).trans (sqSum_apply Y acc h hφ hacc b k))

/-! ## The two later stores and the query block -/

/-- The query block as loaded is the block itself (a cast to its own shape). -/
theorem pay3_eq (x : Vec F S4x3x2048 .f32) : k0_pay3 x = x := by
  unfold k0_pay3
  exact shapeCast_self x _

/-- The later-tile store: the entrywise minimum of what the buffer held and the tile's row minima. -/
theorem pay1_apply (v : FVec Ideal S4x2048 .f32) (o : Vec Ideal S4x2048 .f32) (j : S4x2048.Idx) :
    k0_pay1 (F := Ideal) v o j = min (o j) (v j) := by
  simp only [k0_pay1]
  rw [shapeCast_self]
  rfl

/-- The last-tile store: what the buffer held plus the query's squared norm. -/
theorem pay2_apply (x1 : FVec Ideal S4x3x2048 .f32) (o : Vec Ideal S4x2048 .f32) (b : Fin 4) (r : Fin 2048) :
    k0_pay2 (F := Ideal) x1 o (ix2 b r) = o (ix2 b r) + sqNorm x1 b r := by
  simp only [k0_pay2]
  rw [shapeCast_self]
  exact congrArg (o (ix2 b r) + ·) (sqSum_apply x1 _ _ _ _ b r)

/-! ## The tile's minimum -/

/-- A row minimum from `+∞` over the last axis of a `[4, N, M]` array, at `(b, r)`, is the greatest lower bound of
    any family the row's entries are read as. -/
theorem rowMin_isGlb {N M : ℕ} (src : FVec Ideal (⟨3, ![4, N, M]⟩ : Shape) .f32)
    (h : (⟨3, ![4, N, M]⟩ : Shape).Reduces [2] (⟨2, ![4, N]⟩ : Shape)) (hφ : FKind.Formats .f32)
    (hacc : (0x7F800000#32 : BitVec 32) = FKind.minimumf.neutral .f32 hφ) (b : Fin 4) (r : Fin N) (t : Fin M → EReal)
    (ht : ∀ k, src (ix3 b r k) = t k) :
    IsGlb (multiReduction (F := Ideal) .minimumf [2] (⟨2, ![4, N]⟩ : Shape) src 0x7F800000#32 h hφ hacc (ix2 b r)) t := by
  rw [multiReduction_minimumf_single]
  refine (isGlb_fold_min _ ?_ _).congr fun k => ?_
  · show Ideal.ofBits .f32 0x7F800000#32 = ⊤
    simp [Ideal.ofBits, Ideal.ieee]
  · exact (congrArg src (lift_axis2 h b r k)).trans (ht k)

/-- One entry of the tile: "a − c·((x₀y₀ + x₁y₁) + x₂y₂)" of seven arrays read entrywise. -/
theorem entry_eq {s : Shape} (A X0 Y0 X1 Y1 X2 Y2 : FVec Ideal s .f32) (c : Ideal .f32) (i : s.Idx)
    (a x0 y0 x1 y1 x2 y2 : EReal) (hA : A i = a) (hX0 : X0 i = x0) (hY0 : Y0 i = y0) (hX1 : X1 i = x1) (hY1 : Y1 i = y1)
    (hX2 : X2 i = x2) (hY2 : Y2 i = y2) :
    subf A (mulf (broadcast s c) (addf (addf (mulf X0 Y0) (mulf X1 Y1)) (mulf X2 Y2))) i
      = a - c * ((x0 * y0 + x1 * y1) + x2 * y2) := by
  subst hA hX0 hY0 hX1 hY1 hX2 hY2
  rfl

/-- The tile's row minimum at (b, r) is the greatest lower bound of the tile's 512 terms. -/
theorem tile_isGlb (x : Vec Ideal S4x3x2048 .f32) (y : Vec Ideal S4x3x512 .f32) (b : Fin 4) (r : Fin 2048) :
    IsGlb (k0_pay4 (F := Ideal) x y (ix2 b r)) (fun k : Fin 512 => term x y b r k) := by
  simp only [k0_pay4]
  -- the loaded blocks, cast to their own shapes, are the blocks
  rw [pay3_eq, shapeCast_self]
  -- the minimum over the 512 columns bounds the row's entries; entry k is term k
  refine rowMin_isGlb _ _ _ _ b r _ fun k => ?_
  unfold term Terms.inner
  refine entry_eq _ _ _ _ _ _ _ _ _ _ _ _ _ _ _ _ ?_ ?_ ?_ ?_ ?_ ?_ ?_
  · exact normRead y _ _ _ _ _ _ b r k
  · exact colRead 0 (by decide) x _ _ _ _ b r k
  · exact rowRead 0 (by decide) y _ _ _ _ b r k
  · exact colRead 1 (by decide) x _ _ _ _ b r k
  · exact rowRead 1 (by decide) y _ _ _ _ b r k
  · exact colRead 2 (by decide) x _ _ _ _ b r k
  · exact rowRead 2 (by decide) y _ _ _ _ b r k

end Cert.Proof.KI

end
-- ==== Proof.IdealBlocks.lean ====
/-
  The windows' blocks and arrays at an index.  The kernel's two operands are the arguments transposed to
  coordinate-major form: the query array holds argument 1 at (b, n, d) in place (b, d, n), the target array argument 0
  likewise.  At grid point t = 16·ni + mj the query block is columns 2048·ni … of the query array and the target
  block columns 512·mj … of the target array.
-/
import proofs.«125232_j85667417686468_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The query array (argument 1, coordinate-major) and the target array (argument 0, coordinate-major) as the
    region finds them. -/
abbrev qArr (c : Dev nD) : Vec F S4x3x8192 .f32 := V m c main_v0
abbrev tArr (c : Dev nD) : Vec F S4x3x8192 .f32 := V m c main_v1
/-- The two input blocks at a point, and the two arguments. -/
abbrev qBlk (c : Dev nD) (t : Fin cfg0.N) : Vec F S4x3x2048 .f32 := iblk m c 0 t
abbrev tBlk (c : Dev nD) (t : Fin cfg0.N) : Vec F S4x3x512 .f32 := iblk m c 1 t
abbrev arg0 (c : Dev nD) : Vec F S4x8192x3 .f32 := m ((c : Thread nD τ).loc main_arg0)
abbrev arg1 (c : Dev nD) : Vec F S4x8192x3 .f32 := m ((c : Thread nD τ).loc main_arg1)

theorem point_lt (t : Fin cfg0.N) : t.val < 64 := lt_of_lt_of_eq t.isLt (show cfg0.N = 64 from N_0)

/-- The query row of the whole array that row r of point t's query block is. -/
def qRow (t : Fin cfg0.N) (r : Fin 2048) : Fin 8192 := ⟨2048 * (t.val / 16) + r.val, by have := point_lt t; omega⟩
/-- The target column of the whole array that column k of point t's target block is. -/
def tCol (t : Fin cfg0.N) (k : Fin 512) : Fin 8192 := ⟨512 * (t.val % 16) + k.val, by omega⟩

/-- The two input windows' block indices over the grid: only the last axis moves, the query window with the outer
    grid coordinate and the target window with the inner one. -/
theorem qIdx : ∀ t : Fin cfg0.N, win0_0.index t (0 : Fin 3) = 0 ∧ win0_0.index t (1 : Fin 3) = 0 ∧ win0_0.index t (2 : Fin 3) = t.val / 16 :=
  (by decide +kernel : ∀ t : Fin grid0.N, win0_0.index t (0 : Fin 3) = 0 ∧ win0_0.index t (1 : Fin 3) = 0 ∧ win0_0.index t (2 : Fin 3) = t.val / 16)
theorem tIdx : ∀ t : Fin cfg0.N, win0_1.index t (0 : Fin 3) = 0 ∧ win0_1.index t (1 : Fin 3) = 0 ∧ win0_1.index t (2 : Fin 3) = t.val % 16 :=
  (by decide +kernel : ∀ t : Fin grid0.N, win0_1.index t (0 : Fin 3) = 0 ∧ win0_1.index t (1 : Fin 3) = 0 ∧ win0_1.index t (2 : Fin 3) = t.val % 16)

/-- A block's coordinate in its array is block index × block size + the coordinate inside the block; for the query
    block only the last axis has a nonzero block index, t / 16. -/
theorem qBlk_apply (c : Dev nD) (t : Fin cfg0.N) (b : Fin 4) (d : Fin 3) (r : Fin 2048) :
    qBlk m c t (ix3 b d r) = qArr m c (ix3 b d (qRow t r)) := by
  obtain ⟨e0, e1, e2⟩ := qIdx t
  show V m c main_v0 (((cfg0.win 0).blk t).view.emb (ix3 b d r)) = V m c main_v0 (ix3 b d (qRow t r))
  refine congrArg (V m c main_v0 : S4x3x8192.Idx → Elt F .f32) ?_
  funext a; apply Fin.ext
  match a with
  | ⟨0, _⟩ => show win0_0.index t (0 : Fin 3) * 4 + 1 * b.val = b.val; omega
  | ⟨1, _⟩ => show win0_0.index t (1 : Fin 3) * 3 + 1 * d.val = d.val; omega
  | ⟨2, _⟩ => show win0_0.index t (2 : Fin 3) * 2048 + 1 * r.val = 2048 * (t.val / 16) + r.val; omega

/-- The same for the target block, whose last-axis block index is t mod 16. -/
theorem tBlk_apply (c : Dev nD) (t : Fin cfg0.N) (b : Fin 4) (d : Fin 3) (k : Fin 512) :
    tBlk m c t (ix3 b d k) = tArr m c (ix3 b d (tCol t k)) := by
  obtain ⟨e0, e1, e2⟩ := tIdx t
  show V m c main_v1 (((cfg0.win 1).blk t).view.emb (ix3 b d k)) = V m c main_v1 (ix3 b d (tCol t k))
  refine congrArg (V m c main_v1 : S4x3x8192.Idx → Elt F .f32) ?_
  funext a; apply Fin.ext
  match a with
  | ⟨0, _⟩ => show win0_1.index t (0 : Fin 3) * 4 + 1 * b.val = b.val; omega
  | ⟨1, _⟩ => show win0_1.index t (1 : Fin 3) * 3 + 1 * d.val = d.val; omega
  | ⟨2, _⟩ => show win0_1.index t (2 : Fin 3) * 512 + 1 * k.val = 512 * (t.val % 16) + k.val; omega

/-- The query array is what the first host transpose wrote: argument 1 with its last two axes swapped. -/
theorem qArr_eq (c : Dev nD) : (qArr m c : S4x3x8192.Idx → Elt F .f32)
    = transpose S4x3x8192 [0, 2, 1] (arg1 m c) transposes_S4x8192x3_S4x3x8192_0_2_1 := by
  show StableHlo.after hostOps0 (fun b => m (c, b)) (Proc.devRef .tc main_v0) = _
  after_results

/-- The target array is what the second host transpose wrote: argument 0 with its last two axes swapped. -/
theorem tArr_eq (c : Dev nD) : (tArr m c : S4x3x8192.Idx → Elt F .f32)
    = transpose S4x3x8192 [0, 2, 1] (arg0 m c) transposes_S4x8192x3_S4x3x8192_0_2_1 := by
  show StableHlo.after hostOps0 (fun b => m (c, b)) (Proc.devRef .tc main_v1) = _
  after_results

/-- Read at (b, d, n), the transposed array is the argument at (b, n, d). -/
theorem qArr_apply (c : Dev nD) (b : Fin 4) (d : Fin 3) (n : Fin 8192) :
    qArr m c (ix3 b d n) = arg1 m c (ix3 b n d) := by
  rw [qArr_eq m c]
  exact transpose_ix3_021_apply (arg1 m c) transposes_S4x8192x3_S4x3x8192_0_2_1 b d n

theorem tArr_apply (c : Dev nD) (b : Fin 4) (d : Fin 3) (k : Fin 8192) :
    tArr m c (ix3 b d k) = arg0 m c (ix3 b k d) := by
  rw [tArr_eq m c]
  exact transpose_ix3_021_apply (arg0 m c) transposes_S4x8192x3_S4x3x8192_0_2_1 b d k

end Cert.Proof.KI

end
-- ==== Proof.IdealHeld.lean ====
/-
  What the output's staging buffer holds after each grid point, on the extended reals.  Point t = 16·ni + mj has seen
  the target columns below 512·(mj + 1); by induction on t, entry (b, r) of the buffer after point t with mj < 15 is
  the greatest lower bound of "|y_k|² − 2⟨x_n, y_k⟩" over those columns k, n = 2048·ni + r the query's row: the first
  tile stores the tile's bound, every later tile takes the minimum with its own, and min(a, b) bounds the union.
  At mj = 15 all 8192 columns have been seen and the body adds |x_n|²; a bound over a finite nonempty family moves
  with an added constant, so the entry is the greatest lower bound of the full squared distances.
-/
import proofs.«125232_j85667417686468_2_alg».proof.Proof.IdealOuts
import proofs.«125232_j85667417686468_2_alg».proof.Proof.IdealTile
import proofs.«125232_j85667417686468_2_alg».proof.Proof.IdealBlocks

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Proof.MinLaw Cert.Proof.Terms

variable (m : (ℓ : Loc nD τ sig) → Buf (Elt Ideal) ℓ)

/-! ## Columns seen so far -/

/-- The columns below 512·(j+1) are those below 512·j and the 512 of tile j. -/
theorem forall_cols_succ (P : Fin 8192 → Prop) (j : ℕ) (hj : j < 16) :
    (∀ k : Fin 8192, k.val < 512 * (j + 1) → P k) ↔
      ((∀ k : Fin 8192, k.val < 512 * j → P k) ∧ ∀ k : Fin 512, P ⟨512 * j + k.val, by have := k.isLt; omega⟩) := by
  constructor
  · intro h
    exact ⟨fun k hk => h k (by omega), fun k => h _ (by show 512 * j + k.val < 512 * (j + 1); have := k.isLt; omega)⟩
  · rintro ⟨h1, h2⟩ k hk
    by_cases hlt : k.val < 512 * j
    · exact h1 k hlt
    · have e : (⟨512 * j + (k.val - 512 * j), by omega⟩ : Fin 8192) = k := Fin.ext (by show 512 * j + (k.val - 512 * j) = k.val; omega)
      exact e ▸ h2 ⟨k.val - 512 * j, by omega⟩

/-- `a` bounds the terms of the columns below `L`. -/
def BoundsBelow (a : EReal) (L : ℕ) (f : Fin 8192 → EReal) : Prop := ∀ z : EReal, z ≤ a ↔ ∀ k : Fin 8192, k.val < L → z ≤ f k

/-! ## One tile, in terms of the whole arrays -/

/-- A block's term is the arrays' term at the block's row and column. -/
theorem term_blocks (c : Dev nD) (t : Fin cfg0.N) (b : Fin 4) (r : Fin 2048) (k : Fin 512) :
    term (N := 2048) (M := 512) (qBlk m c t) (tBlk m c t) b r k = term (N := 8192) (M := 8192) (qArr m c) (tArr m c) b (qRow t r) (tCol t k) := by
  simp only [term, sqNorm, Terms.inner, qBlk_apply, tBlk_apply]

theorem sqNorm_block (c : Dev nD) (t : Fin cfg0.N) (b : Fin 4) (r : Fin 2048) :
    sqNorm (N := 2048) (qBlk m c t) b r = sqNorm (N := 8192) (qArr m c) b (qRow t r) := by
  simp only [sqNorm, qBlk_apply]

/-- The tile's row minimum bounds the terms of the tile's 512 columns of the target array. -/
theorem tile_cols (c : Dev nD) (t : Fin cfg0.N) (b : Fin 4) (r : Fin 2048) :
    IsGlb (k0_pay4 (F := Ideal) (qBlk m c t) (tBlk m c t) (ix2 b r))
      (fun k : Fin 512 => term (N := 8192) (M := 8192) (qArr m c) (tArr m c) b (qRow t r) (tCol t k)) :=
  (tile_isGlb (qBlk m c t) (tBlk m c t) b r).congr (fun k => term_blocks m c t b r k)

/-! ## What each point leaves, as the body's arithmetic -/

theorem held_first (c : Dev nD) (t : Fin cfg0.N) (h0 : t.val % 16 = 0) :
    heldAt m c t.val t.isLt = k0_pay4 (F := Ideal) (qBlk m c t) (tBlk m c t) := by
  rw [heldAt_first m c t h0]; exact outFirst_eq ..

theorem held_later (c : Dev nD) (t : Fin cfg0.N) (h0 : ¬t.val % 16 = 0) (h15 : ¬t.val % 16 = 15) :
    heldAt m c t.val t.isLt = k0_pay1 (F := Ideal) (k0_pay4 (F := Ideal) (qBlk m c t) (tBlk m c t))
      (heldAt m c (t.val - 1) (Nat.lt_of_le_of_lt (Nat.sub_le _ _) t.isLt)) := by
  rw [heldAt_later m c t h0 h15]; exact outLater_eq ..

theorem held_last (c : Dev nD) (t : Fin cfg0.N) (h0 : ¬t.val % 16 = 0) (h15 : t.val % 16 = 15) :
    heldAt m c t.val t.isLt = k0_pay2 (F := Ideal) (k0_pay3 (F := Ideal) (qBlk m c t))
      (k0_pay1 (F := Ideal) (k0_pay4 (F := Ideal) (qBlk m c t) (tBlk m c t))
        (heldAt m c (t.val - 1) (Nat.lt_of_le_of_lt (Nat.sub_le _ _) t.isLt))) := by
  rw [heldAt_last m c t h0 h15]; exact outLast_eq ..

/-! ## The induction over the points -/

/-- Taking the minimum with tile j's bound extends a bound of the columns below 512·j to those below 512·(j+1). -/
theorem bounds_step {a v : EReal} {f : Fin 8192 → EReal} (j : ℕ) (hj : j < 16)
    (ha : BoundsBelow a (512 * j) f)
    (hv : IsGlb v (fun k : Fin 512 => f ⟨512 * j + k.val, by have := k.isLt; omega⟩)) :
    BoundsBelow (min a v) (512 * (j + 1)) f := by
  intro z
  rw [le_min_iff, ha z, hv z]
  exact (forall_cols_succ (fun k => z ≤ f k) j hj).symm

/-- After a point that is not the last of its query tile, entry (b, r) bounds the terms of the columns seen so far. -/
theorem held_bounds (c : Dev nD) : ∀ (n : ℕ) (hn : n < cfg0.N), n % 16 ≠ 15 → ∀ (b : Fin 4) (r : Fin 2048),
    BoundsBelow (heldAt m c n hn (ix2 b r)) (512 * (n % 16 + 1))
      (fun k => term (N := 8192) (M := 8192) (qArr m c) (tArr m c) b (qRow ⟨n, hn⟩ r) k) := by
  intro n
  induction n with
  | zero =>
    intro hn _ b r
    have h := bounds_step (a := ⊤) (f := fun k => term (N := 8192) (M := 8192) (qArr m c) (tArr m c) b (qRow ⟨0, hn⟩ r) k) 0 (by omega)
      (fun z => ⟨fun _ k hk => absurd hk (by omega), fun _ => le_top⟩)
      (tile_cols m c ⟨0, hn⟩ b r)
    rw [min_top_left] at h
    rw [held_first m c ⟨0, hn⟩ rfl]
    exact h
  | succ n ih =>
    intro hn h15 b r
    have hN : n + 1 < 64 := lt_of_lt_of_eq hn (show cfg0.N = 64 from N_0)
    by_cases h0 : (n + 1) % 16 = 0
    · have h := bounds_step (a := ⊤) (f := fun k => term (N := 8192) (M := 8192) (qArr m c) (tArr m c) b (qRow ⟨n + 1, hn⟩ r) k) 0 (by omega)
        (fun z => ⟨fun _ k hk => absurd hk (by omega), fun _ => le_top⟩)
        (by
          have ht := tile_cols m c ⟨n + 1, hn⟩ b r
          have e : ∀ k : Fin 512, tCol ⟨n + 1, hn⟩ k = ⟨512 * 0 + k.val, by have := k.isLt; omega⟩ := fun k =>
            Fin.ext (by show 512 * ((n + 1) % 16) + k.val = 512 * 0 + k.val; rw [h0])
          exact ht.congr (fun k => by rw [e k]))
      rw [min_top_left] at h
      rw [held_first m c ⟨n + 1, hn⟩ h0, h0]
      exact h
    · have hprev := ih (Nat.lt_of_succ_lt hn) (by omega) b r
      have hq : qRow ⟨n, Nat.lt_of_succ_lt hn⟩ r = qRow ⟨n + 1, hn⟩ r :=
        Fin.ext (by show 2048 * (n / 16) + r.val = 2048 * ((n + 1) / 16) + r.val; omega)
      rw [hq] at hprev
      have hj : n % 16 + 1 = (n + 1) % 16 := by omega
      rw [hj] at hprev
      have ht := tile_cols m c ⟨n + 1, hn⟩ b r
      have h := bounds_step ((n + 1) % 16) (by omega) hprev ht
      rw [held_later m c ⟨n + 1, hn⟩ h0 h15, pay1_apply]
      exact h

/-- After the last point of a query tile, entry (b, r) is the greatest lower bound of the squared distances from
    query row 2048·ni + r to all 8192 targets. -/
theorem held_full (c : Dev nD) (t : Fin cfg0.N) (h15 : t.val % 16 = 15) (b : Fin 4) (r : Fin 2048) :
    IsGlb (heldAt m c t.val t.isLt (ix2 b r))
      (fun k : Fin 8192 => term (N := 8192) (M := 8192) (qArr m c) (tArr m c) b (qRow t r) k
        + sqNorm (N := 8192) (qArr m c) b (qRow t r)) := by
  have hN : t.val < 64 := point_lt t
  have h0 : ¬t.val % 16 = 0 := by omega
  have hprev := held_bounds m c (t.val - 1) (Nat.lt_of_le_of_lt (Nat.sub_le _ _) t.isLt) (by omega) b r
  have hq : qRow ⟨t.val - 1, Nat.lt_of_le_of_lt (Nat.sub_le _ _) t.isLt⟩ r = qRow t r :=
    Fin.ext (by show 2048 * ((t.val - 1) / 16) + r.val = 2048 * (t.val / 16) + r.val; omega)
  rw [hq] at hprev
  have hj : (t.val - 1) % 16 + 1 = t.val % 16 := by omega
  rw [hj] at hprev
  have hall := bounds_step (t.val % 16) (by omega) hprev (tile_cols m c t b r)
  have hglb : IsGlb (min (heldAt m c (t.val - 1) (Nat.lt_of_le_of_lt (Nat.sub_le _ _) t.isLt) (ix2 b r))
      (k0_pay4 (F := Ideal) (qBlk m c t) (tBlk m c t) (ix2 b r)))
      (fun k : Fin 8192 => term (N := 8192) (M := 8192) (qArr m c) (tArr m c) b (qRow t r) k) := by
    intro z
    rw [hall z]
    exact ⟨fun h k => h k (by have := k.isLt; omega), fun h k _ => h k⟩
  have := hglb.add_const (sqNorm (N := 8192) (qArr m c) b (qRow t r))
  rw [held_last m c t h0 h15, pay2_apply, pay3_eq, pay1_apply, sqNorm_block]
  exact this

end Cert.Proof.KI

end
-- ==== Proof.IdealArray.lean ====
/-
  The kernel's result array after the run.  The output block of query tile ni is written back once, after point
  t = 16·ni + 15, to rows [4] × columns 2048·ni … 2048·ni + 2047 of the [4, 8192] result; the four blocks tile the
  array, so the array ends holding, at (b, n), what the staging buffer held after point 16·(n / 2048) + 15 at
  (b, n mod 2048) — which is the greatest lower bound of the squared distances from query n to the 8192 targets.
-/
import proofs.«125232_j85667417686468_2_alg».proof.Proof.IdealHeld

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Proof.MinLaw Cert.Proof.Terms

variable (m : (ℓ : Loc nD τ sig) → Buf (Elt Ideal) ℓ)

/-- What the staging buffer holds after point t, indexed by the point. -/
def heldF (c : Dev nD) (t : Fin cfg0.N) : Vec Ideal S4x2048 .f32 := heldAt m c t.val t.isLt

/-- The last point of the query tile that holds column n. -/
def lastPoint (n : ℕ) (hn : n < 8192) : Fin cfg0.N := ⟨16 * (n / 2048) + 15, by rw [show cfg0.N = 64 from N_0]; omega⟩

/-- The result array: entry (b, n) is what the buffer held at (b, n mod 2048) after the last point of n's query tile. -/
def result (c : Dev nD) : S4x8192.Idx → EReal := fun j =>
  heldF m c (lastPoint (j 1).val (idx2_lt1 j)) (ix2 (⟨(j 0).val, idx2_lt0 j⟩ : Fin 4) (⟨(j 1).val % 2048, Nat.mod_lt _ (by decide)⟩ : Fin 2048))

/-- The output window's block index at point t is (0, t / 16). -/
theorem out_index : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- What a written-back point writes is its block of the result array. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have hN : t.val < 64 := point_lt t
  obtain ⟨i0, i1⟩ := out_index t
  show (cfg0.win 2).cut (grid0.coords t) ((dats m 0 c).after 2 t) = _
  rw [after0_2]
  funext y
  show heldAt m c t.val t.isLt y = result m c (((cfg0.win 2).blk t).view.emb y)
  have e0 : ((((cfg0.win 2).blk t).view.emb y) 0).val = win0_2.index t (0 : Fin 2) * 4 + 1 * (y 0).val := rfl
  have e1 : ((((cfg0.win 2).blk t).view.emb y) 1).val = win0_2.index t (1 : Fin 2) * 2048 + 1 * (y 1).val := rfl
  have hy0 : (y 0).val < 4 := (y 0).isLt
  have hy1 : (y 1).val < 2048 := (y 1).isLt
  unfold result heldF
  have ht : lastPoint ((((cfg0.win 2).blk t).view.emb y) 1).val (idx2_lt1 _) = t :=
    Fin.ext (by show 16 * (((((cfg0.win 2).blk t).view.emb y) 1).val / 2048) + 15 = t.val; rw [e1, i1]; omega)
  have hy : (ix2 (⟨((((cfg0.win 2).blk t).view.emb y) 0).val, idx2_lt0 _⟩ : Fin 4)
      (⟨((((cfg0.win 2).blk t).view.emb y) 1).val % 2048, Nat.mod_lt _ (by decide)⟩ : Fin 2048) : S4x2048.Idx) = y := by
    funext a; apply Fin.ext
    match a with
    | ⟨0, _⟩ => show ((((cfg0.win 2).blk t).view.emb y) 0).val = (y 0).val; rw [e0, i0]; omega
    | ⟨1, _⟩ => show ((((cfg0.win 2).blk t).view.emb y) 1).val % 2048 = (y 1).val; rw [e1, i1]; omega
  rw [ht, hy]

/-- An index of the array is in point t's block iff each coordinate is in the block's range on its axis. -/
theorem mem_out_blk (t : Fin cfg0.N) (i : S4x8192.Idx) :
    i ∈ ((cfg0.win 2).blk t).view.set ↔ ∀ a : Fin 2, win0_2.index t a * S4x2048.size a ≤ (i a).val ∧ (i a).val < win0_2.index t a * S4x2048.size a + S4x2048.size a := by
  show i ∈ ((View.whole main_v2).slice (win0_2.rect t)).set ↔ _
  rw [View.set_slice_whole, Rect.mem_set_unit]
  exact Iff.rfl

/-- Every index of the result array is in the block some written-back point writes. -/
theorem out_cover (i : S4x8192.Idx) : ∃ t : Fin cfg0.N, (cfg0.win 2).flush t = true ∧ i ∈ ((cfg0.win 2).blk t).view.set := by
  have hi0 : (i 0).val < 4 := idx2_lt0 i
  have hi1 : (i 1).val < 8192 := idx2_lt1 i
  refine ⟨lastPoint (i 1).val hi1, (flush0_2 _).mpr (by show (16 * ((i 1).val / 2048) + 15) % 16 = 15; omega), ?_⟩
  obtain ⟨i0, i1⟩ := out_index (lastPoint (i 1).val hi1)
  have hl : (lastPoint (i 1).val hi1).val = 16 * ((i 1).val / 2048) + 15 := rfl
  rw [mem_out_blk]
  intro a
  match a with
  | ⟨0, _⟩ => show win0_2.index (lastPoint (i 1).val hi1) (0 : Fin 2) * 4 ≤ (i 0).val ∧ (i 0).val < win0_2.index (lastPoint (i 1).val hi1) (0 : Fin 2) * 4 + 4; rw [i0]; omega
  | ⟨1, _⟩ => show win0_2.index (lastPoint (i 1).val hi1) (1 : Fin 2) * 2048 ≤ (i 1).val ∧ (i 1).val < win0_2.index (lastPoint (i 1).val hi1) (1 : Fin 2) * 2048 + 2048; rw [i1, hl]; omega

/-- The result array after the run. -/
theorem final (c : Dev nD) : (dats m 0 c).arrAt 2 cfg0.N = result m c :=
  (dats m 0 c).arrAt_eq_of_cover 2 (result m c) (fun t hf => flushed_eq m c t hf) out_cover

/-- Entry (b, n) of the result array is the greatest lower bound of the squared distances from query n to the targets. -/
theorem result_isGlb (c : Dev nD) (b : Fin 4) (n : Fin 8192) :
    IsGlb (result m c (ix2 b n))
      (fun k : Fin 8192 => term (N := 8192) (M := 8192) (qArr m c) (tArr m c) b n k + sqNorm (N := 8192) (qArr m c) b n) := by
  have hn : n.val < 8192 := n.isLt
  have h := held_full m c (lastPoint n.val hn) (by show (16 * (n.val / 2048) + 15) % 16 = 15; omega) b
    (⟨n.val % 2048, Nat.mod_lt _ (by decide)⟩ : Fin 2048)
  have hq : qRow (lastPoint n.val hn) (⟨n.val % 2048, Nat.mod_lt _ (by decide)⟩ : Fin 2048) = n :=
    Fin.ext (by show 2048 * ((16 * (n.val / 2048) + 15) / 16) + n.val % 2048 = n.val; omega)
  rw [hq] at h
  exact h

end Cert.Proof.KI

end
-- ==== Proof.KernelValue.lean ====
/-
  The kernel program's result.  After the region @main averages the [4, 8192] array of nearest squared distances:
  the sum over the 8192 queries from 0, divided by 8192, summed over the 4 batches from 0, divided by 4.  These four
  operations are carried as one function `meanOfMeans` of the array; the program's run ends with its result at that
  function of the result array, and with its arguments as launched.
-/
import proofs.«125232_j85667417686468_2_alg».proof.Proof.IdealFrame
import proofs.«125232_j85667417686468_2_alg».proof.Proof.Terms
import Idealize.ShloMosaic.Lib.StableHlo.Run
import Idealize.ShloMosaic.PureOps.Ideal
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Proof.MinLaw Cert.Proof.Terms

variable (m : (ℓ : Loc nD τ sig) → Buf (Elt Ideal) ℓ) (ρ : Dev nD → PrngReg)

/-- The host operations after the region, as one function of the [4, 8192] array. -/
def meanOfMeans (z : (⟨S4x8192, .f32⟩ : BufTy).Contents (Elt Ideal)) : (⟨S_, .f32⟩ : BufTy).Contents (Elt Ideal) :=
  Host.divf (F := Ideal)
    (Host.reduceAdd (F := Ideal)
      (Host.divf (F := Ideal)
        (Host.reduceAdd (F := Ideal) z (constant (F := Ideal) S_ .f32 0x00000000#32) reducesTo_S4x8192_S4_d1 h_S_)
        (broadcastInDim S4 ![] bcast_S_S4 (constant (F := Ideal) S_ .f32 0x46000000#32)))
      (constant (F := Ideal) S_ .f32 0x00000000#32) reducesTo_S4_S_d0 h_S_)
    (constant (F := Ideal) S_ .f32 0x40800000#32)

/-- The program's result buffer after the lines that follow the region, given what the result array holds. -/
theorem result_after_tail (c : Dev nD) (G : (⟨S4x8192, .f32⟩ : BufTy).Contents (Elt Ideal)) (hG : (dats m 0 c).arrAt 2 cfg0.N = G) :
    Pipeline.afterTail₀ cfgs (dats m) 0 (V0 m) [hostOps1] c main_v7 = meanOfMeans G := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v2) = G :=
    (Pipeline.withArrays_arr spec0 launch0.win.arr_inj c _ _ 2).trans hG
  rw [hw]
  rfl

/-- The program's run with its result named: the mean of means of the result array; the arguments as launched. -/
theorem run_value (G : (c : Dev nD) → (⟨S4x8192, .f32⟩ : BufTy).Contents (Elt Ideal)) (hG : ∀ c, (dats m 0 c).arrAt 2 cfg0.N = G c) :
    θ_run defs (onTc (τ := τ) (main (F := Ideal))) ⟨m, fun _ => 0, ρ⟩ (fun r => ∀ c : Dev nD,
      r.2.mem ((c.tc : Thread nD τ).loc main_v7) = meanOfMeans (G c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (result_after_tail m c (G c) (hG c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Proof.KI

end
-- ==== Proof.RefValue.lean ====
/-
  The reference at an index.  Its row minimum at (b, n) — the host's minimum-reduce from +∞ over the 8192 targets of
  "(|x_n|² + |y_k|²) − 2·⟨x_n, y_k⟩", each squared norm the host's sum from 0 over the three coordinates and the inner
  product the host's contraction over them — is the greatest lower bound of those 8192 terms.

  The argument: a minimum-reduce over one axis is, at (b, n), the fold of min from the initial word over the entries
  (b, n, k), k = 0 … 8191; the initial word is +∞, so the fold is the greatest lower bound of the entries; and each
  entry, read through the elementwise operations, the four broadcasts, the two norm sums and the contraction, is the
  stated distance term.
-/
import proofs.«125232_j85667417686468_2_alg».proof.Proof.Gen.ReferenceIdeal.Read
import proofs.«125232_j85667417686468_2_alg».proof.Proof.Terms
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

namespace Cert.Proof.Ref

open Cert.ReferenceIdeal Cert.ReferenceIdeal.Gen Cert.ReferenceIdeal.Read
open Idealize.ShloMosaic Idealize.ShloMosaic.TcCoe Idealize.SL.Sem Idealize.ShloMosaic.ValueIdx
open Cert.Proof.MinLaw Cert.Proof.Terms

/-- A point's squared norm as the host sums it (point-major array, from the zero word). -/
def hostSq (x : (⟨S4x8192x3, .f32⟩ : BufTy).Contents (Elt Ideal)) (b : Fin 4) (n : Fin 8192) : EReal :=
  Ideal.ofBits .f32 0x00000000#32 + ∑ d : Fin 3, x (ix3 b n d) * x (ix3 b n d)

/-- The inner product as the host contracts it. -/
def hostDot (xq xt : (⟨S4x8192x3, .f32⟩ : BufTy).Contents (Elt Ideal)) (b : Fin 4) (n k : Fin 8192) : EReal :=
  ∑ d : Fin 3, xq (ix3 b n d) * xt (ix3 b k d)

/-! ## Where an entry (b, n, k) reads its operands -/

/-- The query's norm, broadcast along the target axis and summed over the coordinates, reads the query at (b, n, d):
    the target coordinate k is forgotten. -/
private theorem idx_query (b : Fin 4) (n k : Fin 8192) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- The target's norm, broadcast along the query axis and summed over the coordinates, reads the target at (b, k, d):
    the query coordinate n is forgotten. -/
private theorem idx_target (b : Fin 4) (n k : Fin 8192) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The contraction's left operand (the queries) is read at (b, n, d). -/
private theorem lidx_dot (b : Fin 4) (n k : Fin 8192) (d : Fin 3) : lidx_main_v4 (ix3 b n k) d = ix3 b n d :=
  funext fun a => Fin.ext (by match a with | ⟨0, _⟩ => rfl | ⟨1, _⟩ => rfl | ⟨2, _⟩ => rfl)

/-- The contraction's right operand (the targets) is read at (b, k, d). -/
private theorem ridx_dot (b : Fin 4) (n k : Fin 8192) (d : Fin 3) : ridx_main_v4 (ix3 b n k) d = ix3 b k d :=
  funext fun a => Fin.ext (by match a with | ⟨0, _⟩ => rfl | ⟨1, _⟩ => rfl | ⟨2, _⟩ => rfl)

/-! ## One entry of the reduced array -/

/-- The entry (b, n, k) of the array the minimum runs over is the distance term of query n and target k:
    (|x_n|² + |y_k|²) − 2·⟨x_n, y_k⟩, with both norms summed from the zero word. -/
private theorem entry (x0 x1 : (⟨S4x8192x3, .f32⟩ : BufTy).Contents (Elt Ideal)) (b : Fin 4) (n k : Fin 8192) :
    val_main_v12 (F := Ideal) x0 x1 (ix3 b n k) = (hostSq x1 b n + hostSq x0 b k) - two * hostDot x1 x0 b n k := by
  -- read the subtraction, the sum of the two broadcast norms, and twice the contraction, each at the one index
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  -- inside the three sums: the squares at a coordinate, and the coordinates' indices; the operations are the
  -- extended reals' own
  simp only [idx_query, idx_target, lidx_dot, ridx_dot, val_main_v0_apply, val_main_v2_apply,
    Ideal.mulf_def, Ideal.addf_def, Ideal.subf_def, Ideal.ofBits_def]
  -- both sides are now the same expression, the right one folded into `hostSq`, `hostDot` and `two`
  rfl

/-! ## The minimum over the targets -/

/-- The reduced index (b, n) with target k put back on the reduced axis is (b, n, k). -/
private theorem lift_row (h : S4x8192x8192.Reduces [2] S4x8192) (b : Fin 4) (n : Fin 8192) (k : Fin 8192) :
    h.lift (ix2 b n) k = ix3 b n k :=
  funext fun a => Fin.ext (by match a with | ⟨0, _⟩ => rfl | ⟨1, _⟩ => rfl | ⟨2, _⟩ => rfl)

/-- The reference's row minimum at (b, n) is the greatest lower bound of its 8192 distance terms
    (`x0` the targets, `x1` the queries). -/
theorem ref_isGlb (x0 x1 : (⟨S4x8192x3, .f32⟩ : BufTy).Contents (Elt Ideal)) (b : Fin 4) (n : Fin 8192) :
    IsGlb (val_main_v13 (F := Ideal) x0 x1 (ix2 b n))
      (fun k : Fin 8192 => (hostSq x1 b n + hostSq x0 b k) - two * hostDot x1 x0 b n k) := by
  have h : S4x8192x8192.Reduces [2] S4x8192 := by decide
  unfold val_main_v13
  -- min commutes and associates, so the reduce over the last axis is the fold of min over that axis's coordinates
  have e := Host.reduce_eq_fold_single (FloatOps.minimumf (F := Ideal) (φ := .f32)) (val_main_v12 (F := Ideal) x0 x1)
    (val_main_cst_2 (F := Ideal)) reducesTo_S4x8192x8192_S4x8192_d2 h h_S_ (ix2 b n)
  rw [e]
  -- a fold of min from +∞ is the greatest lower bound of what it folds; then entry by entry
  refine (isGlb_fold_min _ ?_ _).congr fun k => ?_
  · -- the initial word 0x7F800000 is +∞
    rw [val_main_cst_2_apply]; simp [Ideal.ofBits, Ideal.ieee]
  · show val_main_v12 (F := Ideal) x0 x1 (h.lift (ix2 b n) k) = _
    rw [lift_row h b n k, entry]

end Cert.Proof.Ref

end
-- ==== Proof.Bridge.lean ====
/-
  The two programs compute one number.  For batch b and query n both sides hold the greatest lower bound of the same
  8192 extended reals — the kernel's "(|y_k|² − 2⟨x_n, y_k⟩) + |x_n|²" is the reference's "(|x_n|² + |y_k|²) − 2⟨x_n, y_k⟩"
  term by term: the sum on the extended reals is commutative and associative, the reference's sums start from the zero
  word, its contraction over the three coordinates is the kernel's three products added in order, and the kernel's
  coordinate-major operands are the arguments transposed.  A greatest lower bound is unique, so the two [4, 8192]
  arrays are equal, and both programs then apply the same mean of means.
-/
import proofs.«125232_j85667417686468_2_alg».proof.Proof.IdealArray
import proofs.«125232_j85667417686468_2_alg».proof.Proof.KernelValue
import proofs.«125232_j85667417686468_2_alg».proof.Proof.RefValue

set_option maxRecDepth 16384

noncomputable section

namespace Cert.Proof.Bridge

open Idealize.ShloMosaic Idealize.ShloMosaic.TcCoe Idealize.SL.Sem Idealize.ShloMosaic.ValueIdx
open Cert.Proof.MinLaw Cert.Proof.Terms Cert.Proof.KI Cert.Proof.Ref
open Cert.KernelIdeal (nD τ sig)

variable (m : (ℓ : Loc nD τ sig) → Buf (Elt Ideal) ℓ)

/-- One squared distance, the kernel's way and the reference's way. -/
theorem dist_eq (c : Dev nD) (b : Fin 4) (n k : Fin 8192) :
    term (N := 8192) (M := 8192) (qArr m c) (tArr m c) b n k + sqNorm (N := 8192) (qArr m c) b n
      = (hostSq (arg1 m c) b n + hostSq (arg0 m c) b k) - two * hostDot (arg1 m c) (arg0 m c) b n k := by
  unfold term
  rw [term_rearrange]
  simp only [sqNorm, Terms.inner, hostSq, hostDot, Ideal.ofBits_zero_f32, zero_add, Fin.sum_univ_three]
  rw [qArr_apply m c b 0 n, qArr_apply m c b 1 n, qArr_apply m c b 2 n, tArr_apply m c b 0 k, tArr_apply m c b 1 k, tArr_apply m c b 2 k]

/-- The kernel's result array is the reference's array of row minima. -/
theorem arrays_eq (c : Dev nD) :
    result m c = Cert.ReferenceIdeal.Read.val_main_v13 (F := Ideal) (arg0 m c) (arg1 m c) := by
  funext j
  obtain ⟨b, n, rfl⟩ : ∃ (b : Fin 4) (n : Fin 8192), j = ix2 b n := ⟨⟨(j 0).val, idx2_lt0 j⟩, ⟨(j 1).val, idx2_lt1 j⟩, eq_ix2 j⟩
  exact ((result_isGlb m c b n).congr (fun k => dist_eq m c b n k)).unique (ref_isGlb (arg0 m c) (arg1 m c) b n)

/-- The reference's result is the mean of means of its array of row minima. -/
theorem ref_result (x0 x1 : (⟨Cert.ReferenceIdeal.S4x8192x3, .f32⟩ : BufTy).Contents (Elt Ideal)) :
    Cert.ReferenceIdeal.Read.val_main_v18 (F := Ideal) x0 x1 = meanOfMeans (Cert.ReferenceIdeal.Read.val_main_v13 (F := Ideal) x0 x1) := rfl

end Cert.Proof.Bridge

end
-- ==== Proof.lean ====
/-
  The certificate of the nearest-target kernel against its jnp reference: for 4 batches of 8192 query points and 8192
  target points in three dimensions, the mean over batches of the mean over queries of the squared distance to the
  nearest target.

  The kernel keeps, per query tile, a running minimum over target tiles of "|y|² − 2⟨x, y⟩" and adds |x|² once at the
  last target tile; the reference takes the minimum over all targets of "(|x|² + |y|²) − 2⟨x, y⟩".  On the extended
  reals both are the greatest lower bound of the same finite nonempty family (a bound of such a family is attained, so
  it moves with an added constant), hence equal, entry by entry; both programs then take the same mean of means.
  No finiteness of the inputs is used.

  The three frames: the two kernel programs by the body's run at each of its three kinds of grid point and the
  pipeline's launch; the reference by its run.  The idealization rewrote nothing, so there is nothing to preserve.
-/
import proofs.«125232_j85667417686468_2_alg».proof.Defs
import proofs.«125232_j85667417686468_2_alg».proof.Proof.Gen.Kernel
import proofs.«125232_j85667417686468_2_alg».proof.Proof.Gen.KernelIdeal
import proofs.«125232_j85667417686468_2_alg».proof.Proof.Gen.ReferenceIdeal
import proofs.«125232_j85667417686468_2_alg».proof.Proof.Gen.ReferenceIdeal.Run
import proofs.«125232_j85667417686468_2_alg».proof.Proof.Gen.ReferenceIdeal.Read
import proofs.«125232_j85667417686468_2_alg».proof.Proof.Gen.Pre_finite_inputs
import proofs.«125232_j85667417686468_2_alg».proof.Proof.BitsFrame
import proofs.«125232_j85667417686468_2_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Proof.K.frame m ρ

theorem frame_kernelIdeal : Cert.frame_KernelIdeal := fun m ρ _ => Cert.Proof.KI.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean of means of one and the same [4, 8192] array. -/
theorem algebraic : Cert.algebraic_KernelIdeal_ReferenceIdeal := by
  intro m ρ m' ρ' _ hagree
  refine ⟨fun c => Cert.Proof.KI.meanOfMeans (Cert.Proof.KI.result m c),
    Cert.Proof.KI.run_value m ρ (fun c => Cert.Proof.KI.result m c) (fun c => Cert.Proof.KI.final m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2, Cert.Proof.Bridge.ref_result,
    ← Cert.Proof.Bridge.arrays_eq m c]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
